-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg5 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  main_v23

def fn {F : FTy → Type} [FloatOps F] (main_arg0 : FVec F S50000x256 .f32) (main_arg1 : IVec S2x800000 32) (main_arg2 : FVec F S256x256 .f32) (main_arg3 : FVec F S256 .f32) (main_arg4 : FVec F S256x256 .f32) (main_arg5 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg2
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_v13 main_v16
-- ==== Kernel.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x256 : Shape := ⟨2, ![5000, 256]⟩
abbrev S850000x256 : Shape := ⟨2, ![850000, 256]⟩
abbrev S1x256 : Shape := ⟨2, ![1, 256]⟩
abbrev S2000x256 : Shape := ⟨2, ![2000, 256]⟩

abbrev nBuf : Space → Nat
  | .hbm => 123
  | .vmem => 18
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S256x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x256, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x256, .f32⟩
  | .hbm, ⟨56, _⟩ => ⟨S850000x1, .f32⟩
  | .hbm, ⟨57, _⟩ => ⟨S850000x256, .f32⟩
  | .hbm, ⟨58, _⟩ => ⟨S850000x256, .f32⟩
  | .hbm, ⟨59, _⟩ => ⟨S_, .f32⟩
  | .hbm, ⟨60, _⟩ => ⟨S50000x256, .f32⟩
  | .hbm, ⟨61, _⟩ => ⟨S850000x1, .i32⟩
  | .hbm, ⟨62, _⟩ => ⟨S50000x256, .f32⟩
  | .hbm, ⟨63, _⟩ => ⟨S50000, .i32⟩
  | .hbm, ⟨64, _⟩ => ⟨S1x800000, .i32⟩
  | .hbm, ⟨65, _⟩ => ⟨S800000, .i32⟩
  | .hbm, ⟨66, _⟩ => ⟨S850000, .i32⟩
  | .hbm, ⟨67, _⟩ => ⟨S1x800000, .i32⟩
  | .hbm, ⟨68, _⟩ => ⟨S800000, .i32⟩
  | .hbm, ⟨69, _⟩ => ⟨S850000, .i32⟩
  | .hbm, ⟨70, _⟩ => ⟨S_, .f32⟩
  | .hbm, ⟨71, _⟩ => ⟨S850000, .f32⟩
  | .hbm, ⟨72, _⟩ => ⟨S_, .f32⟩
  | .hbm, ⟨73, _⟩ => ⟨S50000, .f32⟩
  | .hbm, ⟨74, _⟩ => ⟨S850000x1, .i32⟩
  | .hbm, ⟨75, _⟩ => ⟨S50000, .f32⟩
  | .hbm, ⟨76, _⟩ => ⟨S_, .f32⟩
  | .hbm, ⟨77, _⟩ => ⟨S50000, .f32⟩
  | .hbm, ⟨78, _⟩ => ⟨S50000, .i1⟩
  | .hbm, ⟨79, _⟩ => ⟨S50000, .f32⟩
  | .hbm, ⟨80, _⟩ => ⟨S_, .f32⟩
  | .hbm, ⟨81, _⟩ => ⟨S_, .f32⟩
  | .hbm, ⟨82, _⟩ => ⟨S50000, .f32⟩
  | .hbm, ⟨83, _⟩ => ⟨S50000, .f32⟩
  | .hbm, ⟨84, _⟩ => ⟨S_, .i32⟩
  | .hbm, ⟨85, _⟩ => ⟨S850000, .i32⟩
  | .hbm, ⟨86, _⟩ => ⟨S850000, .i1⟩
  | .hbm, ⟨87, _⟩ => ⟨S_, .i32⟩
  | .hbm, ⟨88, _⟩ => ⟨S850000, .i32⟩
  | .hbm, ⟨89, _⟩ => ⟨S850000, .i32⟩
  | .hbm, ⟨90, _⟩ => ⟨S850000, .i32⟩
  | .hbm, ⟨91, _⟩ => ⟨S850000x1, .i32⟩
  | .hbm, ⟨92, _⟩ => ⟨S850000, .f32⟩
  | .hbm, ⟨93, _⟩ => ⟨S_, .i32⟩
  | .hbm, ⟨94, _⟩ => ⟨S850000, .i32⟩
  | .hbm, ⟨95, _⟩ => ⟨S850000, .i1⟩
  | .hbm, ⟨96, _⟩ => ⟨S_, .i32⟩
  | .hbm, ⟨97, _⟩ => ⟨S850000, .i32⟩
  | .hbm, ⟨98, _⟩ => ⟨S850000, .i32⟩
  | .hbm, ⟨99, _⟩ => ⟨S850000, .i32⟩
  | .hbm, ⟨100, _⟩ => ⟨S850000x1, .i32⟩
  | .hbm, ⟨101, _⟩ => ⟨S850000, .f32⟩
  | .hbm, ⟨102, _⟩ => ⟨S850000, .f32⟩
  | .hbm, ⟨103, _⟩ => ⟨S50000x256, .f32⟩
  | .hbm, ⟨104, _⟩ => ⟨S_, .i32⟩
  | .hbm, ⟨105, _⟩ => ⟨S850000, .i32⟩
  | .hbm, ⟨106, _⟩ => ⟨S850000, .i1⟩
  | .hbm, ⟨107, _⟩ => ⟨S_, .i32⟩
  | .hbm, ⟨108, _⟩ => ⟨S850000, .i32⟩
  | .hbm, ⟨109, _⟩ => ⟨S850000, .i32⟩
  | .hbm, ⟨110, _⟩ => ⟨S850000, .i32⟩
  | .hbm, ⟨111, _⟩ => ⟨S850000x1, .i32⟩
  | .hbm, ⟨112, _⟩ => ⟨S850000x256, .f32⟩
  | .hbm, ⟨113, _⟩ => ⟨S850000x1, .f32⟩
  | .hbm, ⟨114, _⟩ => ⟨S850000x256, .f32⟩
  | .hbm, ⟨115, _⟩ => ⟨S850000x256, .f32⟩
  | .hbm, ⟨116, _⟩ => ⟨S_, .f32⟩
  | .hbm, ⟨117, _⟩ => ⟨S50000x256, .f32⟩
  | .hbm, ⟨118, _⟩ => ⟨S850000x1, .i32⟩
  | .hbm, ⟨119, _⟩ => ⟨S50000x256, .f32⟩
  | .hbm, ⟨120, _⟩ => ⟨S1x256, .f32⟩
  | .hbm, ⟨121, _⟩ => ⟨S1x256, .f32⟩
  | .hbm, ⟨122, _⟩ => ⟨S50000x256, .f32⟩
  | .local _ .vmem, ⟨0, _⟩ => ⟨S5000x256, .f32⟩
  | .local _ .vmem, ⟨1, _⟩ => ⟨S5000x256, .f32⟩
  | .local _ .vmem, ⟨2, _⟩ => ⟨S256x256, .f32⟩
  | .local _ .vmem, ⟨3, _⟩ => ⟨S5000x256, .f32⟩
  | .local _ .vmem, ⟨4, _⟩ => ⟨S5000x256, .f32⟩
  | .local _ .vmem, ⟨5, _⟩ => ⟨S5000x256, .f32⟩
  | .local _ .vmem, ⟨6, _⟩ => ⟨S5000x256, .f32⟩
  | .local _ .vmem, ⟨7, _⟩ => ⟨S256x256, .f32⟩
  | .local _ .vmem, ⟨8, _⟩ => ⟨S5000x256, .f32⟩
  | .local _ .vmem, ⟨9, _⟩ => ⟨S5000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S1x256, .f32⟩
  | .local _ .vmem, ⟨15, _⟩ => ⟨S1x256, .f32⟩
  | .local _ .vmem, ⟨16, _⟩ => ⟨S2000x256, .f32⟩
  | .local _ .vmem, ⟨17, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_cst_10 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_12 : Ref sig .tc := ⟨.hbm, 80, rfl⟩
abbrev main_call1_v0 : Ref sig .tc := ⟨.hbm, 81, rfl⟩
abbrev main_call1_v1 : Ref sig .tc := ⟨.hbm, 82, rfl⟩
abbrev main_v58 : Ref sig .tc := ⟨.hbm, 83, rfl⟩
abbrev main_c_13 : Ref sig .tc := ⟨.hbm, 84, rfl⟩
abbrev main_v59 : Ref sig .tc := ⟨.hbm, 85, rfl⟩
abbrev main_v60 : Ref sig .tc := ⟨.hbm, 86, rfl⟩
abbrev main_c_14 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_15 : Ref sig .tc := ⟨.hbm, 93, rfl⟩
abbrev main_v66 : Ref sig .tc := ⟨.hbm, 94, rfl⟩
abbrev main_v67 : Ref sig .tc := ⟨.hbm, 95, rfl⟩
abbrev main_c_16 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_c_17 : Ref sig .tc := ⟨.hbm, 104, rfl⟩
abbrev main_v75 : Ref sig .tc := ⟨.hbm, 105, rfl⟩
abbrev main_v76 : Ref sig .tc := ⟨.hbm, 106, rfl⟩
abbrev main_c_18 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_cst_19 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg4_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem3_0 : DmaSem sig := 15
abbrev cc2_sem4_0 : DmaSem sig := 16
abbrev cc2_sem4_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x256_S256x256_S5000x256_1_0_0_1_n_n_wf : DotDims.WF S5000x256 S256x256 S5000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S50000x256.size a
  hwx0_2 : ∀ i : grid0.Coords, EltTy.bits .f32 = 32 ∨ (Rect.block (s := S50000x256) S5000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x256.size a ≤ S50000x256.size a
  hwx1_2 : ∀ i : grid1.Coords, EltTy.bits .f32 = 32 ∨ (Rect.block (s := S50000x256) S5000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x256.size a ≤ S50000x256.size a
  hwx2_4 : ∀ i : grid2.Coords, EltTy.bits .f32 = 32 ∨ (Rect.block (s := S50000x256) S2000x256.size (cc2_transform_4 i) (hinb2_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x256_S256x256_S5000x256_1_0_0_1_n_n : DotDims S5000x256 S256x256 S5000x256 where
  lhsContracting := [1]
  rhsContracting := [0]
  lhsNonContracting := [0]
  rhsNonContracting := [1]
  lhsBatch := []
  rhsBatch := []
  wf := dot_S5000x256_S256x256_S5000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v74) S5000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v43) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v87) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v88) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v89) S1x256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v90) S2000x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S256x256 : Shape := ⟨2, ![256, 256]⟩
abbrev S256 : Shape := ⟨1, ![256]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x256 : Shape := ⟨2, ![850000, 256]⟩
abbrev S1x256 : Shape := ⟨2, ![1, 256]⟩

abbrev nBuf : Space → Nat
  | .hbm => 130
  | .vmem => 0
  | .smem => 0
  | _ => 0

abbrev hbmTy0_0 (i : Nat) : BufTy := match i % 128 with
  | 0 => ⟨S50000x256, .f32⟩
  | 1 => ⟨S2x800000, .i32⟩
  | 2 => ⟨S256x256, .f32⟩
  | 3 => ⟨S256, .f32⟩
  | 4 => ⟨S256x256, .f32⟩
  | 5 => ⟨S256, .f32⟩
  | 6 => ⟨S50000, .i32⟩
  | 7 => ⟨S1x800000, .i32⟩
  | 8 => ⟨S800000, .i32⟩
  | 9 => ⟨S850000, .i32⟩
  | 10 => ⟨S1x800000, .i32⟩
  | 11 => ⟨S800000, .i32⟩
  | 12 => ⟨S850000, .i32⟩
  | 13 => ⟨S_, .f32⟩
  | 14 => ⟨S850000, .f32⟩
  | 15 => ⟨S_, .f32⟩
  | 16 => ⟨S50000, .f32⟩
  | 17 => ⟨S850000x1, .i32⟩
  | 18 => ⟨S50000, .f32⟩
  | 19 => ⟨S_, .f32⟩
  | 20 => ⟨S50000, .f32⟩
  | 21 => ⟨S50000, .i1⟩
  | 22 => ⟨S50000, .f32⟩
  | 23 => ⟨S_, .f32⟩
  | 24 => ⟨S_, .f32⟩
  | 25 => ⟨S50000, .f32⟩
  | 26 => ⟨S50000, .f32⟩
  | 27 => ⟨S_, .i32⟩
  | 28 => ⟨S850000, .i32⟩
  | 29 => ⟨S850000, .i1⟩
  | 30 => ⟨S_, .i32⟩
  | 31 => ⟨S850000, .i32⟩
  | 32 => ⟨S850000, .i32⟩
  | 33 => ⟨S850000, .i32⟩
  | 34 => ⟨S850000x1, .i32⟩
  | 35 => ⟨S850000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S850000, .f32⟩
  | 46 => ⟨S50000x256, .f32⟩
  | 47 => ⟨S_, .i32⟩
  | 48 => ⟨S850000, .i32⟩
  | 49 => ⟨S850000, .i1⟩
  | 50 => ⟨S_, .i32⟩
  | 51 => ⟨S850000, .i32⟩
  | 52 => ⟨S850000, .i32⟩
  | 53 => ⟨S850000, .i32⟩
  | 54 => ⟨S850000x1, .i32⟩
  | 55 => ⟨S850000x256, .f32⟩
  | 56 => ⟨S850000x1, .f32⟩
  | 57 => ⟨S850000x256, .f32⟩
  | 58 => ⟨S850000x256, .f32⟩
  | 59 => ⟨S_, .f32⟩
  | 60 => ⟨S50000x256, .f32⟩
  | 61 => ⟨S850000x1, .i32⟩
  | 62 => ⟨S50000x256, .f32⟩
  | 63 => ⟨S1x256, .f32⟩
  | 64 => ⟨S50000x256, .f32⟩
  | 65 => ⟨S50000x256, .f32⟩
  | 66 => ⟨S_, .f32⟩
  | 67 => ⟨S50000x256, .f32⟩
  | 68 => ⟨S50000x256, .f32⟩
  | 69 => ⟨S50000, .i32⟩
  | 70 => ⟨S1x800000, .i32⟩
  | 71 => ⟨S800000, .i32⟩
  | 72 => ⟨S850000, .i32⟩
  | 73 => ⟨S1x800000, .i32⟩
  | 74 => ⟨S800000, .i32⟩
  | 75 => ⟨S850000, .i32⟩
  | 76 => ⟨S_, .f32⟩
  | 77 => ⟨S850000, .f32⟩
  | 78 => ⟨S_, .f32⟩
  | 79 => ⟨S50000, .f32⟩
  | 80 => ⟨S850000x1, .i32⟩
  | 81 => ⟨S50000, .f32⟩
  | 82 => ⟨S_, .f32⟩
  | 83 => ⟨S50000, .f32⟩
  | 84 => ⟨S50000, .i1⟩
  | 85 => ⟨S50000, .f32⟩
  | 86 => ⟨S_, .f32⟩
  | 87 => ⟨S_, .f32⟩
  | 88 => ⟨S50000, .f32⟩
  | 89 => ⟨S50000, .f32⟩
  | 90 => ⟨S_, .i32⟩
  | 91 => ⟨S850000, .i32⟩
  | 92 => ⟨S850000, .i1⟩
  | 93 => ⟨S_, .i32⟩
  | 94 => ⟨S850000, .i32⟩
  | 95 => ⟨S850000, .i32⟩
  | 96 => ⟨S850000, .i32⟩
  | 97 => ⟨S850000x1, .i32⟩
  | 98 => ⟨S850000, .f32⟩
  | 99 => ⟨S_, .i32⟩
  | 100 => ⟨S850000, .i32⟩
  | 101 => ⟨S850000, .i1⟩
  | 102 => ⟨S_, .i32⟩
  | 103 => ⟨S850000, .i32⟩
  | 104 => ⟨S850000, .i32⟩
  | 105 => ⟨S850000, .i32⟩
  | 106 => ⟨S850000x1, .i32⟩
  | 107 => ⟨S850000, .f32⟩
  | 108 => ⟨S850000, .f32⟩
  | 109 => ⟨S50000x256, .f32⟩
  | 110 => ⟨S_, .i32⟩
  | 111 => ⟨S850000, .i32⟩
  | 112 => ⟨S850000, .i1⟩
  | 113 => ⟨S_, .i32⟩
  | 114 => ⟨S850000, .i32⟩
  | 115 => ⟨S850000, .i32⟩
  | 116 => ⟨S850000, .i32⟩
  | 117 => ⟨S850000x1, .i32⟩
  | 118 => ⟨S850000x256, .f32⟩
  | 119 => ⟨S850000x1, .f32⟩
  | 120 => ⟨S850000x256, .f32⟩
  | 121 => ⟨S850000x256, .f32⟩
  | 122 => ⟨S_, .f32⟩
  | 123 => ⟨S50000x256, .f32⟩
  | 124 => ⟨S850000x1, .i32⟩
  | 125 => ⟨S50000x256, .f32⟩
  | 126 => ⟨S1x256, .f32⟩
  | 127 => ⟨S50000x256, .f32⟩
  | _ => ⟨S50000x256, .f32⟩

abbrev hbmTy0_1 (i : Nat) : BufTy := match i % 128 with
  | 0 => ⟨S50000x256, .f32⟩
  | 1 => ⟨S50000x256, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_9 : Ref sig .tc := ⟨.hbm, 76, rfl⟩
abbrev main_v55 : Ref sig .tc := ⟨.hbm, 77, rfl⟩
abbrev main_cst_10 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_call2_v0 : Ref sig .tc := ⟨.hbm, 87, rfl⟩
abbrev main_call2_v1 : Ref sig .tc := ⟨.hbm, 88, rfl⟩
abbrev main_v62 : Ref sig .tc := ⟨.hbm, 89, rfl⟩
abbrev main_c_13 : Ref sig .tc := ⟨.hbm, 90, rfl⟩
abbrev main_v63 : Ref sig .tc := ⟨.hbm, 91, rfl⟩
abbrev main_v64 : Ref sig .tc := ⟨.hbm, 92, rfl⟩
abbrev main_c_14 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_15 : Ref sig .tc := ⟨.hbm, 99, rfl⟩
abbrev main_v70 : Ref sig .tc := ⟨.hbm, 100, rfl⟩
abbrev main_v71 : Ref sig .tc := ⟨.hbm, 101, rfl⟩
abbrev main_c_16 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_17 : Ref sig .tc := ⟨.hbm, 110, rfl⟩
abbrev main_v79 : Ref sig .tc := ⟨.hbm, 111, rfl⟩
abbrev main_v80 : Ref sig .tc := ⟨.hbm, 112, rfl⟩
abbrev main_c_18 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_19 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x256_S50000x256_1_0_0_1_n_n_wf : DotDims.WF S50000x256 S256x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf

class Facts : Prop extends Facts₀ where

variable [Facts]
-- ==== Proof.Spec.lean ====
/-
  The mathematics both programs compute, as named functions of the argument arrays (generic in the float instance).

  A graph convolution with self loops and symmetric normalisation:  the edge list `ei : i32[2, 800000]` gives sources
  (row 0) and targets (row 1); every node gets a self loop, so the message list has 850000 entries
  (`sources`, `targets`).  `degree` counts the messages arriving at a node, `invSqrtDeg` is `deg^(-1/2)` where
  `deg > 0` and `0` elsewhere, a message's weight is the product of that number at its two ends (`edgeWeight`), and
  `aggregate` adds, into each target's row, the source's feature row times the weight.  Negative indices are wrapped by
  the node count before they are used (`wrapped`), as numpy indexing does.  The network's output is
  `max (conv (x·W1) + b1) 0 + (conv (x·W2) + b2)` (`epilogue`, `out`).

  The two kernel-side forms stated here are what the kernel's regions are proved to leave: the matrix product as a
  plain sum over the contracted axis (`matProd`), and the epilogue index by index over bias rows (`combineAt`).
-/
import proofs.«148208_j16604343566383_1_alg».proof.ReferenceIdeal
import proofs.«148208_j16604343566383_1_alg».proof.Proof.Gen.ReferenceIdeal
import Idealize.ShloMosaic.PureOps.Ideal

noncomputable section

namespace Cert.Spec

open Idealize.ShloMosaic Cert.ReferenceIdeal Cert.ReferenceIdeal.Gen

variable {F : FTy → Type} [FloatOps F]

/-- Message sources: row 0 of the edge list, then every node once (its self loop). -/
def sources (ei : (⟨S2x800000, .i32⟩ : BufTy).Contents (Elt F)) : (⟨S850000, .i32⟩ : BufTy).Contents (Elt F) :=
  concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0

/-- Message targets: row 1 of the edge list, then every node once. -/
def targets (ei : (⟨S2x800000, .i32⟩ : BufTy).Contents (Elt F)) : (⟨S850000, .i32⟩ : BufTy).Contents (Elt F) :=
  concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0

/-- A node index with a negative value moved up by the node count, as a column of start indices. -/
def wrapped (v : (⟨S850000, .i32⟩ : BufTy).Contents (Elt F)) : (⟨S850000x1, .i32⟩ : BufTy).Contents (Elt F) :=
  broadcastInDim S850000x1 ![0] bcast_S850000_S850000x1_0 (select (cmpi .slt v (broadcastInDim S850000 ![] bcast_S_S850000 (constantI S_ 32 0#32))) (addi v (broadcastInDim S850000 ![] bcast_S_S850000 (constantI S_ 32 50000#32))) v)

/-- How many messages arrive at each node: ones added at the targets. -/
def degree (dst : (⟨S850000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32)) (broadcastInDim S850000x1 ![0] bcast_S850000_S850000x1_0 dst) (broadcastInDim S850000 ![] bcast_S_S850000 (constant S_ .f32 0x3F800000#32))

/-- `deg^(-1/2)` where the degree is positive, zero elsewhere. -/
def invSqrtDeg (dst : (⟨S850000, .i32⟩ : BufTy).Contents (Elt F)) : (⟨S50000, .f32⟩ : BufTy).Contents (Elt F) :=
  select (cmpf (F := F) .ogt (degree dst) (broadcastInDim S50000 ![] bcast_S_S50000 (constant S_ .f32 0x00000000#32))) (Host.rsqrt (degree dst)) (broadcastInDim S50000 ![] bcast_S_S50000 (id (constant S_ .f32 0x00000000#32)))

/-- A message's weight: the normalising factor at its source times the one at its target. -/
def edgeWeight (src dst : (⟨S850000, .i32⟩ : BufTy).Contents (Elt F)) : (⟨S850000, .f32⟩ : BufTy).Contents (Elt F) :=
  mulf (Host.gather gather_S50000_S850000x1_S850000_n_0_n_n_0_1_1 (invSqrtDeg dst) (wrapped src)) (Host.gather gather_S50000_S850000x1_S850000_n_0_n_n_0_1_1 (invSqrtDeg dst) (wrapped dst))

/-- Each target's row receives the sum of its messages: the source's feature row times the message's weight. -/
def aggregate (src dst : (⟨S850000, .i32⟩ : BufTy).Contents (Elt F)) (wgt : (⟨S850000, .f32⟩ : BufTy).Contents (Elt F))
    (h : (⟨S50000x256, .f32⟩ : BufTy).Contents (Elt F)) : (⟨S50000x256, .f32⟩ : BufTy).Contents (Elt F) :=
  Host.scatterAdd scatter_S50000x256_S850000x1_S850000x256_1_0_0_1 (broadcastInDim S50000x256 ![] bcast_S_S50000x256 (constant S_ .f32 0x00000000#32)) (broadcastInDim S850000x1 ![0] bcast_S850000_S850000x1_0 dst) (mulf (Host.gather gather_S50000x256_S850000x1_S850000x256_1_0_n_n_0_1_1256 h (wrapped src)) (broadcastInDim S850000x256 ![0, 1] bcast_S850000x1_S850000x256_0_1 (broadcastInDim S850000x1 ![0] bcast_S850000_S850000x1_0 wgt)))

/-- The normalised aggregation of transformed features `h` over the graph `ei`. -/
def conv (ei : (⟨S2x800000, .i32⟩ : BufTy).Contents (Elt F)) (h : (⟨S50000x256, .f32⟩ : BufTy).Contents (Elt F)) :
    (⟨S50000x256, .f32⟩ : BufTy).Contents (Elt F) :=
  aggregate (sources ei) (targets ei) (edgeWeight (sources ei) (targets ei)) h

/-- A bias vector repeated down every row. -/
def rowBias (b : (⟨S256, .f32⟩ : BufTy).Contents (Elt F)) : (⟨S50000x256, .f32⟩ : BufTy).Contents (Elt F) :=
  broadcastInDim S50000x256 ![0, 1] bcast_S1x256_S50000x256_0_1 (broadcastInDim S1x256 ![1] bcast_S256_S1x256_1 b)

/-- `max (a1 + b1) 0 + (a2 + b2)`, entry by entry. -/
def epilogue (a1 a2 : (⟨S50000x256, .f32⟩ : BufTy).Contents (Elt F)) (b1 b2 : (⟨S256, .f32⟩ : BufTy).Contents (Elt F)) :
    (⟨S50000x256, .f32⟩ : BufTy).Contents (Elt F) :=
  addf (maximumf (addf a1 (rowBias b1)) (broadcastInDim S50000x256 ![] bcast_S_S50000x256 (constant S_ .f32 0x00000000#32))) (addf a2 (rowBias b2))

/-- The network's output as the reference spells it: both feature transforms are the host's matrix product. -/
def out (x : (⟨S50000x256, .f32⟩ : BufTy).Contents (Elt F)) (ei : (⟨S2x800000, .i32⟩ : BufTy).Contents (Elt F))
    (w1 : (⟨S256x256, .f32⟩ : BufTy).Contents (Elt F)) (b1 : (⟨S256, .f32⟩ : BufTy).Contents (Elt F))
    (w2 : (⟨S256x256, .f32⟩ : BufTy).Contents (Elt F)) (b2 : (⟨S256, .f32⟩ : BufTy).Contents (Elt F)) :
    (⟨S50000x256, .f32⟩ : BufTy).Contents (Elt F) :=
  epilogue (conv ei (Host.dotGeneral dot_S50000x256_S256x256_S50000x256_1_0_0_1_n_n none x w1))
    (conv ei (Host.dotGeneral dot_S50000x256_S256x256_S50000x256_1_0_0_1_n_n none x w2)) b1 b2

/-! ## The kernel-side forms -/

/-- Entry `(r, k)` of the left factor met by output entry `i = (r, j)`. -/
abbrev lhsAt (i : S50000x256.Idx) (k : Fin 256) : S50000x256.Idx := fun a => match a with
  | ⟨0, _⟩ => ⟨(i 0).val, (i 0).isLt⟩
  | ⟨1, _⟩ => ⟨k.val, k.isLt⟩
/-- Entry `(k, j)` of the right factor met by output entry `i = (r, j)`. -/
abbrev rhsAt (i : S50000x256.Idx) (k : Fin 256) : S256x256.Idx := fun a => match a with
  | ⟨0, _⟩ => ⟨k.val, k.isLt⟩
  | ⟨1, _⟩ => ⟨(i 1).val, (i 1).isLt⟩

/-- The matrix product over the extended reals as a plain sum: entry `(r, j)` is `∑ k, x (r, k) · w (k, j)`. -/
def matProd (x : S50000x256.Idx → EReal) (w : S256x256.Idx → EReal) : S50000x256.Idx → EReal :=
  fun i => ∑ k : Fin 256, x (lhsAt i k) * w (rhsAt i k)

/-- Entry `(0, j)` of a one-row array, for output entry `i = (r, j)`. -/
abbrev biasAt (i : S50000x256.Idx) : S1x256.Idx := fun a => match a with
  | ⟨0, _⟩ => ⟨0, Nat.one_pos⟩
  | ⟨1, _⟩ => ⟨(i 1).val, (i 1).isLt⟩

/-- The epilogue index by index over one-row biases: entry `(r, j)` is `max (a1 (r, j) + r1 (0, j)) 0 + (a2 (r, j) + r2 (0, j))`. -/
def combineAt (a1 a2 : S50000x256.Idx → Elt F .f32) (r1 r2 : S1x256.Idx → Elt F .f32) : S50000x256.Idx → Elt F .f32 :=
  fun i => FloatOps.addf (FloatOps.maximumf (FloatOps.addf (a1 i) (r1 (biasAt i))) (Scalar.ofBits .f32 0x00000000#32))
    (FloatOps.addf (a2 i) (r2 (biasAt i)))

end Cert.Spec

end
-- ==== Proof.HostReads.lean ====
/-
  What the host operations of @main leave in the buffers the kernel regions and the later stretches read, each stretch
  read from an ARBITRARY starting valuation `X` (so that the same lemma serves whatever boundary the stretch is entered
  from).  The three stretches repeat the reference's own operations, so each computed buffer is one of the specification's
  named functions (`Cert.Spec`) of buffers of `X`; every other buffer a stretch does not write keeps its contents.

  * before the first product: the message sources, the targets and the message weights, from the edge list;
  * between the two products: the first aggregation (from sources, targets, weights and the first product), and the
    sources, targets and weights again for the second;
  * before the epilogue: the second aggregation, and the two biases as one-row arrays.
-/
import proofs.«148208_j16604343566383_1_alg».proof.Proof.Gen.KernelIdeal.Frame
import proofs.«148208_j16604343566383_1_alg».proof.Proof.Spec
import Idealize.ShloMosaic.Lib.StableHlo.Run

set_option maxRecDepth 16384

noncomputable section

namespace Cert.KernelIdeal.Hand

open Idealize.ShloMosaic Idealize.ShloMosaic.TcCoe Idealize.SL.Sem Idealize.ShloMosaic.StableHlo
open Cert.KernelIdeal Cert.KernelIdeal.Gen

variable {F : FTy → Type} [FloatOps F]
variable (X : Valuation τ sig (Elt F))

/-! ## The stretch before the first product -/

/-- The buffers after the three lists of operations that precede the first product, from `X`. -/
abbrev pre0 : Valuation τ sig (Elt F) := after hostOps0_2 (after hostOps0_1 (after hostOps0 X))

theorem pre0_sources : pre0 X (Proc.devRef .tc main_v3) = Cert.Spec.sources (X (Proc.devRef .tc main_arg1)) := by
  simp only [pre0, hostOps0, hostOps0_1, hostOps0_2]
  after_results_simp
  rfl

theorem pre0_targets : pre0 X (Proc.devRef .tc main_v6) = Cert.Spec.targets (X (Proc.devRef .tc main_arg1)) := by
  simp only [pre0, hostOps0, hostOps0_1, hostOps0_2]
  after_results_simp
  rfl

theorem pre0_weights : pre0 X (Proc.devRef .tc main_v29)
    = Cert.Spec.edgeWeight (Cert.Spec.sources (X (Proc.devRef .tc main_arg1))) (Cert.Spec.targets (X (Proc.devRef .tc main_arg1))) := by
  simp only [pre0, hostOps0, hostOps0_1, hostOps0_2]
  after_results_simp
  rfl

/-- The stretch writes none of the six argument buffers. -/
theorem pre0_arg0 : pre0 X (Proc.devRef .tc main_arg0) = X (Proc.devRef .tc main_arg0) := by
  simp only [pre0, hostOps0, hostOps0_1, hostOps0_2]; after_results_simp
theorem pre0_arg1 : pre0 X (Proc.devRef .tc main_arg1) = X (Proc.devRef .tc main_arg1) := by
  simp only [pre0, hostOps0, hostOps0_1, hostOps0_2]; after_results_simp
theorem pre0_arg2 : pre0 X (Proc.devRef .tc main_arg2) = X (Proc.devRef .tc main_arg2) := by
  simp only [pre0, hostOps0, hostOps0_1, hostOps0_2]; after_results_simp
theorem pre0_arg3 : pre0 X (Proc.devRef .tc main_arg3) = X (Proc.devRef .tc main_arg3) := by
  simp only [pre0, hostOps0, hostOps0_1, hostOps0_2]; after_results_simp
theorem pre0_arg4 : pre0 X (Proc.devRef .tc main_arg4) = X (Proc.devRef .tc main_arg4) := by
  simp only [pre0, hostOps0, hostOps0_1, hostOps0_2]; after_results_simp
theorem pre0_arg5 : pre0 X (Proc.devRef .tc main_arg5) = X (Proc.devRef .tc main_arg5) := by
  simp only [pre0, hostOps0, hostOps0_1, hostOps0_2]; after_results_simp

/-! ## The stretch between the two products -/

/-- The buffers after the three lists of operations between the two products, from `X`. -/
abbrev mid1 : Valuation τ sig (Elt F) := after hostOps1_2 (after hostOps1_1 (after hostOps1 X))

/-- The first aggregation: of the sources, targets and weights the stretch finds, and the first product. -/
theorem mid1_aggregate : mid1 X (Proc.devRef .tc main_v43)
    = Cert.Spec.aggregate (X (Proc.devRef .tc main_v3)) (X (Proc.devRef .tc main_v6)) (X (Proc.devRef .tc main_v29)) (X (Proc.devRef .tc main_v30)) := by
  simp only [mid1, hostOps1, hostOps1_1, hostOps1_2]
  after_results_simp
  rfl

theorem mid1_sources : mid1 X (Proc.devRef .tc main_v47) = Cert.Spec.sources (X (Proc.devRef .tc main_arg1)) := by
  simp only [mid1, hostOps1, hostOps1_1, hostOps1_2]
  after_results_simp
  rfl

theorem mid1_targets : mid1 X (Proc.devRef .tc main_v50) = Cert.Spec.targets (X (Proc.devRef .tc main_arg1)) := by
  simp only [mid1, hostOps1, hostOps1_1, hostOps1_2]
  after_results_simp
  rfl

theorem mid1_weights : mid1 X (Proc.devRef .tc main_v73)
    = Cert.Spec.edgeWeight (Cert.Spec.sources (X (Proc.devRef .tc main_arg1))) (Cert.Spec.targets (X (Proc.devRef .tc main_arg1))) := by
  simp only [mid1, hostOps1, hostOps1_1, hostOps1_2]
  after_results_simp
  rfl

theorem mid1_arg0 : mid1 X (Proc.devRef .tc main_arg0) = X (Proc.devRef .tc main_arg0) := by
  simp only [mid1, hostOps1, hostOps1_1, hostOps1_2]; after_results_simp
theorem mid1_arg3 : mid1 X (Proc.devRef .tc main_arg3) = X (Proc.devRef .tc main_arg3) := by
  simp only [mid1, hostOps1, hostOps1_1, hostOps1_2]; after_results_simp
theorem mid1_arg4 : mid1 X (Proc.devRef .tc main_arg4) = X (Proc.devRef .tc main_arg4) := by
  simp only [mid1, hostOps1, hostOps1_1, hostOps1_2]; after_results_simp
theorem mid1_arg5 : mid1 X (Proc.devRef .tc main_arg5) = X (Proc.devRef .tc main_arg5) := by
  simp only [mid1, hostOps1, hostOps1_1, hostOps1_2]; after_results_simp

/-! ## The stretch before the epilogue -/

/-- The second aggregation: of the sources, targets and weights the stretch finds, and the second product. -/
theorem post2_aggregate : after hostOps2 X (Proc.devRef .tc main_v87)
    = Cert.Spec.aggregate (X (Proc.devRef .tc main_v47)) (X (Proc.devRef .tc main_v50)) (X (Proc.devRef .tc main_v73)) (X (Proc.devRef .tc main_v74)) := by
  simp only [hostOps2]
  after_results_simp
  rfl

/-- The first bias as a one-row array. -/
theorem post2_bias1 : after hostOps2 X (Proc.devRef .tc main_v88)
    = shapeCast S1x256 (X (Proc.devRef .tc main_arg3)) shapeCasts_S256_S1x256 := by
  simp only [hostOps2]
  after_results_simp
  rfl

/-- The second bias as a one-row array. -/
theorem post2_bias2 : after hostOps2 X (Proc.devRef .tc main_v89)
    = shapeCast S1x256 (X (Proc.devRef .tc main_arg5)) shapeCasts_S256_S1x256 := by
  simp only [hostOps2]
  after_results_simp
  rfl

/-- The stretch leaves the first aggregation where it is. -/
theorem post2_keeps : after hostOps2 X (Proc.devRef .tc main_v43) = X (Proc.devRef .tc main_v43) := by
  simp only [hostOps2]; after_results_simp

end Cert.KernelIdeal.Hand

end
-- ==== Proof.Product0.lean ====
/-
  The first product region: the kernel multiplies a 5000-row block of `x` by the whole of `W1` at each of its ten grid
  points and writes the 5000 rows back; the blocks tile the 50000 rows, so the array the region leaves is the matrix
  product of its two input arrays, entry `(r, j) = ∑ k, x (r, k) · W1 (k, j)` over the extended reals (the narrowing of
  both factors to bf16 is the identity there, and the accumulator starts at zero).
-/
import proofs.«148208_j16604343566383_1_alg».proof.Proof.Gen.KernelIdeal.Frame
import proofs.«148208_j16604343566383_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Product0

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b))

/-! ## One block's product at an index

The contraction runs over the left factor's columns and the right factor's rows; the output's row comes from the left
factor, its column from the right. -/

/-- The left factor's row is the output entry's row. -/
theorem lhs_axis_row (j : S5000x256.Idx) (q : dot_S5000x256_S256x256_S5000x256_1_0_0_1_n_n.contr.Idx) :
    (dot_S5000x256_S256x256_S5000x256_1_0_0_1_n_n.lhsIdx j q 0).val = (j 0).val := by
  unfold DotDims.lhsIdx
  rw [dif_neg (show ¬(0 : Fin S5000x256.rank) ∈ dot_S5000x256_S256x256_S5000x256_1_0_0_1_n_n.lhsBatch by decide),
    dif_pos (show (0 : Fin S5000x256.rank) ∈ dot_S5000x256_S256x256_S5000x256_1_0_0_1_n_n.lhsNonContracting by decide)]
  rfl

/-- The left factor's column is the contraction position. -/
theorem lhs_axis_contr (j : S5000x256.Idx) (q : dot_S5000x256_S256x256_S5000x256_1_0_0_1_n_n.contr.Idx) :
    (dot_S5000x256_S256x256_S5000x256_1_0_0_1_n_n.lhsIdx j q 1).val = (q ⟨0, by decide⟩).val :=
  dot_S5000x256_S256x256_S5000x256_1_0_0_1_n_n.lhsIdx_val_of_single rfl j q

/-- The right factor's row is the contraction position. -/
theorem rhs_axis_contr (j : S5000x256.Idx) (q : dot_S5000x256_S256x256_S5000x256_1_0_0_1_n_n.contr.Idx) :
    (dot_S5000x256_S256x256_S5000x256_1_0_0_1_n_n.rhsIdx j q 0).val = (q ⟨0, by decide⟩).val :=
  dot_S5000x256_S256x256_S5000x256_1_0_0_1_n_n.rhsIdx_val_of_single rfl j q

/-- The right factor's column is the output entry's column. -/
theorem rhs_axis_col (j : S5000x256.Idx) (q : dot_S5000x256_S256x256_S5000x256_1_0_0_1_n_n.contr.Idx) :
    (dot_S5000x256_S256x256_S5000x256_1_0_0_1_n_n.rhsIdx j q 1).val = (j 1).val := by
  unfold DotDims.rhsIdx
  rw [dif_neg (show ¬(1 : Fin S256x256.rank) ∈ dot_S5000x256_S256x256_S5000x256_1_0_0_1_n_n.rhsBatch by decide),
    dif_pos (show (1 : Fin S256x256.rank) ∈ dot_S5000x256_S256x256_S5000x256_1_0_0_1_n_n.rhsNonContracting by decide)]
  rfl

/-- Entry `(p, k)` of a block of the left factor, met by the block's output entry `j = (p, q)`. -/
abbrev lhsBlk (j : S5000x256.Idx) (k : Fin 256) : S5000x256.Idx := fun a => match a with
  | ⟨0, _⟩ => ⟨(j 0).val, (j 0).isLt⟩
  | ⟨1, _⟩ => ⟨k.val, k.isLt⟩
/-- Entry `(k, q)` of the right factor, met by the block's output entry `j = (p, q)`. -/
abbrev rhsBlk (j : S5000x256.Idx) (k : Fin 256) : S256x256.Idx := fun a => match a with
  | ⟨0, _⟩ => ⟨k.val, k.isLt⟩
  | ⟨1, _⟩ => ⟨(j 1).val, (j 1).isLt⟩

/-- WHAT THE BODY STORES, at an index: narrowing a factor changes nothing over the extended reals and the accumulator
    is zero, so entry `(p, q)` of the stored block is `∑ k, x (p, k) · w (k, q)`. -/
theorem payload_apply (x0 : Vec Ideal S5000x256 .f32) (w : Vec Ideal S256x256 .f32) (j : S5000x256.Idx) :
    k0_pay1 (F := Ideal) x0 w j = ∑ k : Fin 256, x0 (lhsBlk j k) * w (rhsBlk j k) := by
  unfold k0_pay1
  show FloatOps.matmul dot_S5000x256_S256x256_S5000x256_1_0_0_1_n_n none (truncf (F := Ideal) .bf16 x0 bitsLt_bf16_f32)
      (truncf (F := Ideal) .bf16 w bitsLt_bf16_f32) (constant (F := Ideal) S5000x256 .f32 0x00000000#32) j = _
  rw [Ideal.matmul_constant_zero_apply,
    ← Equiv.sum_comp (ValueIdx.contrEquiv1 dot_S5000x256_S256x256_S5000x256_1_0_0_1_n_n 256 rfl rfl).symm]
  refine Finset.sum_congr rfl fun k _ => ?_
  have hk := ValueIdx.contrEquiv1_symm_val dot_S5000x256_S256x256_S5000x256_1_0_0_1_n_n 256 rfl rfl k
  have el : dot_S5000x256_S256x256_S5000x256_1_0_0_1_n_n.lhsIdx j ((ValueIdx.contrEquiv1 dot_S5000x256_S256x256_S5000x256_1_0_0_1_n_n 256 rfl rfl).symm k) = lhsBlk j k :=
    funext fun a => Fin.ext (by
      match a with
      | ⟨0, _⟩ => exact lhs_axis_row _ _
      | ⟨1, _⟩ => exact (lhs_axis_contr _ _).trans hk)
  have er : dot_S5000x256_S256x256_S5000x256_1_0_0_1_n_n.rhsIdx j ((ValueIdx.contrEquiv1 dot_S5000x256_S256x256_S5000x256_1_0_0_1_n_n 256 rfl rfl).symm k) = rhsBlk j k :=
    funext fun a => Fin.ext (by
      match a with
      | ⟨0, _⟩ => exact (rhs_axis_contr _ _).trans hk
      | ⟨1, _⟩ => exact rhs_axis_col _ _)
  show x0 (dot_S5000x256_S256x256_S5000x256_1_0_0_1_n_n.lhsIdx j ((ValueIdx.contrEquiv1 dot_S5000x256_S256x256_S5000x256_1_0_0_1_n_n 256 rfl rfl).symm k))
      * w (dot_S5000x256_S256x256_S5000x256_1_0_0_1_n_n.rhsIdx j ((ValueIdx.contrEquiv1 dot_S5000x256_S256x256_S5000x256_1_0_0_1_n_n 256 rfl rfl).symm k)) = _
  rw [el, er]

/-! ## From the ten blocks to the array -/

theorem zero_offsets : (![0, 0] : Fin 2 → Nat) = fun _ => 0 := funext fun a => by fin_cases a <;> rfl

/-- The printed index maps, decided over the grid: the left factor's block moves down the rows with the output's block
    and starts at column 0; the right factor is always its one whole block; the output's block starts at column 0 and
    its row index is one of the ten. -/
theorem block_indices : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Each of the ten row blocks is SOME point's. -/
theorem block_of_row : ∀ q : Fin 10, ∃ t : Fin cfg0.N, win0_2.index t = ![q.val, 0] :=
  (by decide +kernel : ∀ q : Fin 10, ∃ t : Fin grid0.N, win0_2.index t = ![q.val, 0])

/-- The left factor's block at point `t`, at entry `(p, k)`, is the array's entry `(r, k)` on the row `r` where the
    output's block puts its row `p`. -/
theorem lhs_read (c : Dev nD) (t : Fin cfg0.N) (j : S5000x256.Idx) (k : Fin 256) :
    iblk0 V c 0 t (lhsBlk j k) = V c main_arg0 (Cert.Spec.lhsAt (((cfg0.win 2).blk t).view.emb j) k) := by
  obtain ⟨e0, e1, e2, e3, e4, e5⟩ := block_indices t
  show V c main_arg0 (((cfg0.win 0).blk t).view.emb (lhsBlk j k)) = _
  have h : ((cfg0.win 0).blk t).view.emb (lhsBlk j k) = Cert.Spec.lhsAt (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * k.val = k.val; omega
  rw [h]

/-- The right factor's one block, at entry `(k, q)`, is the array's entry `(k, q)`, the output's block keeping its
    columns. -/
theorem rhs_read (c : Dev nD) (t : Fin cfg0.N) (j : S5000x256.Idx) (k : Fin 256) :
    iblk0 V c 1 t (rhsBlk j k) = V c main_arg2 (Cert.Spec.rhsAt (((cfg0.win 2).blk t).view.emb j) k) := by
  obtain ⟨e0, e1, e2, e3, e4, e5⟩ := block_indices t
  show V c main_arg2 (((cfg0.win 1).blk t).view.emb (rhsBlk j k)) = _
  have h : ((cfg0.win 1).blk t).view.emb (rhsBlk j k) = Cert.Spec.rhsAt (((cfg0.win 2).blk t).view.emb j) k := by
    funext a; apply Fin.ext
    match a with
    | ⟨0, _⟩ => show win0_1.index t (0 : Fin 2) * 256 + 1 * k.val = k.val; omega
    | ⟨1, _⟩ => show win0_1.index t (1 : Fin 2) * 256 + 1 * (j 1).val = win0_2.index t (1 : Fin 2) * 256 + 1 * (j 1).val; omega
  rw [h]

/-- WHAT POINT `t` WRITES BACK is block `t` of the matrix product of the two arrays as the region finds them. -/
theorem flushed_eq (c : Dev nD) (t : Fin cfg0.N) :
    (dat0 (F := Ideal) V c).flushed 2 t
      = ((cfg0.win 2).blk t).view.read (Elt Ideal) (Cert.Spec.matProd (V c main_arg0) (V c main_arg2)) := by
  show (cfg0.win 2).cut (grid0.coords t) ((dat0 V c).after 2 t) = _
  rw [after0_2]
  unfold out0_2
  rw [View.canon_unit_zero zero_offsets]
  simp only [View.ld_unit_zero (S := S5000x256) zero_offsets, View.ld_unit_zero (S := S256x256) zero_offsets]
  funext j
  show k0_pay1 (F := Ideal) (iblk0 V c 0 t) (iblk0 V c 1 t) j
    = Cert.Spec.matProd (V c main_arg0) (V c main_arg2) (((cfg0.win 2).blk t).view.emb j)
  refine (payload_apply _ _ j).trans ?_
  unfold Cert.Spec.matProd
  refine Finset.sum_congr rfl fun k _ => ?_
  rw [lhs_read V c t j k, rhs_read V c t j k]

/-- An index of the array is in point `t`'s block iff each coordinate is in the block's range on its axis. -/
theorem mem_blk (t : Fin cfg0.N) (i : S50000x256.Idx) :
    i ∈ ((cfg0.win 2).blk t).view.set ↔ ∀ a : Fin 2, win0_2.index t a * S5000x256.size a ≤ (i a).val
      ∧ (i a).val < win0_2.index t a * S5000x256.size a + S5000x256.size a := by
  show i ∈ ((View.whole main_v30).slice (win0_2.rect t)).set ↔ _
  rw [View.set_slice_whole, Rect.mem_set_unit]
  exact Iff.rfl

/-- THE BLOCKS TILE THE ARRAY: row `r` is in the block of the point whose row index is `r / 5000`. -/
theorem covered (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ := block_of_row ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 256 ≤ (i 1).val ∧ (i 1).val < win0_2.index t (1 : Fin 2) * 256 + 256; omega

/-- THE REGION'S ARRAY: after the ten write-backs, the output array is the matrix product of the two input arrays as
    the region finds them. -/
theorem region_product (c : Dev nD) :
    (dat0 (F := Ideal) V c).arrAt 2 cfg0.N = Cert.Spec.matProd (V c main_arg0) (V c main_arg2) :=
  (dat0 V c).arrAt_eq_of_cover 2 _ (fun t _ => flushed_eq V c t) covered

end Cert.KernelIdeal.Product0

end
-- ==== Proof.Product1.lean ====
/-
  The second product region: the kernel multiplies a 5000-row block of `x` by the whole of `W2` at each of its ten grid
  points and writes the 5000 rows back; the blocks tile the 50000 rows, so the array the region leaves is the matrix
  product of its two input arrays, entry `(r, j) = ∑ k, x (r, k) · W2 (k, j)` over the extended reals (the narrowing of
  both factors to bf16 is the identity there, and the accumulator starts at zero).
-/
import proofs.«148208_j16604343566383_1_alg».proof.Proof.Gen.KernelIdeal.Frame
import proofs.«148208_j16604343566383_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Product1

open Idealize.ShloMosaic Idealize.ShloMosaic.TcCoe Idealize.SL.Sem
open Cert.KernelIdeal Cert.KernelIdeal.Gen

variable (V : (c : Dev nD) → (b : Ref sig .tc) → Buf (Elt Ideal) ((c : Thread nD τ).loc b))

/-! ## One block's product at an index

The contraction runs over the left factor's columns and the right factor's rows; the output's row comes from the left
factor, its column from the right. -/

/-- The left factor's row is the output entry's row. -/
theorem lhs_axis_row (j : S5000x256.Idx) (q : dot_S5000x256_S256x256_S5000x256_1_0_0_1_n_n.contr.Idx) :
    (dot_S5000x256_S256x256_S5000x256_1_0_0_1_n_n.lhsIdx j q 0).val = (j 0).val := by
  unfold DotDims.lhsIdx
  rw [dif_neg (show ¬(0 : Fin S5000x256.rank) ∈ dot_S5000x256_S256x256_S5000x256_1_0_0_1_n_n.lhsBatch by decide),
    dif_pos (show (0 : Fin S5000x256.rank) ∈ dot_S5000x256_S256x256_S5000x256_1_0_0_1_n_n.lhsNonContracting by decide)]
  rfl

/-- The left factor's column is the contraction position. -/
theorem lhs_axis_contr (j : S5000x256.Idx) (q : dot_S5000x256_S256x256_S5000x256_1_0_0_1_n_n.contr.Idx) :
    (dot_S5000x256_S256x256_S5000x256_1_0_0_1_n_n.lhsIdx j q 1).val = (q ⟨0, by decide⟩).val :=
  dot_S5000x256_S256x256_S5000x256_1_0_0_1_n_n.lhsIdx_val_of_single rfl j q

/-- The right factor's row is the contraction position. -/
theorem rhs_axis_contr (j : S5000x256.Idx) (q : dot_S5000x256_S256x256_S5000x256_1_0_0_1_n_n.contr.Idx) :
    (dot_S5000x256_S256x256_S5000x256_1_0_0_1_n_n.rhsIdx j q 0).val = (q ⟨0, by decide⟩).val :=
  dot_S5000x256_S256x256_S5000x256_1_0_0_1_n_n.rhsIdx_val_of_single rfl j q

/-- The right factor's column is the output entry's column. -/
theorem rhs_axis_col (j : S5000x256.Idx) (q : dot_S5000x256_S256x256_S5000x256_1_0_0_1_n_n.contr.Idx) :
    (dot_S5000x256_S256x256_S5000x256_1_0_0_1_n_n.rhsIdx j q 1).val = (j 1).val := by
  unfold DotDims.rhsIdx
  rw [dif_neg (show ¬(1 : Fin S256x256.rank) ∈ dot_S5000x256_S256x256_S5000x256_1_0_0_1_n_n.rhsBatch by decide),
    dif_pos (show (1 : Fin S256x256.rank) ∈ dot_S5000x256_S256x256_S5000x256_1_0_0_1_n_n.rhsNonContracting by decide)]
  rfl

/-- Entry `(p, k)` of a block of the left factor, met by the block's output entry `j = (p, q)`. -/
abbrev lhsBlk (j : S5000x256.Idx) (k : Fin 256) : S5000x256.Idx := fun a => match a with
  | ⟨0, _⟩ => ⟨(j 0).val, (j 0).isLt⟩
  | ⟨1, _⟩ => ⟨k.val, k.isLt⟩
/-- Entry `(k, q)` of the right factor, met by the block's output entry `j = (p, q)`. -/
abbrev rhsBlk (j : S5000x256.Idx) (k : Fin 256) : S256x256.Idx := fun a => match a with
  | ⟨0, _⟩ => ⟨k.val, k.isLt⟩
  | ⟨1, _⟩ => ⟨(j 1).val, (j 1).isLt⟩

/-- WHAT THE BODY STORES, at an index: narrowing a factor changes nothing over the extended reals and the accumulator
    is zero, so entry `(p, q)` of the stored block is `∑ k, x (p, k) · w (k, q)`. -/
theorem payload_apply (x0 : Vec Ideal S5000x256 .f32) (w : Vec Ideal S256x256 .f32) (j : S5000x256.Idx) :
    k1_pay1 (F := Ideal) x0 w j = ∑ k : Fin 256, x0 (lhsBlk j k) * w (rhsBlk j k) := by
  unfold k1_pay1
  show FloatOps.matmul dot_S5000x256_S256x256_S5000x256_1_0_0_1_n_n none (truncf (F := Ideal) .bf16 x0 bitsLt_bf16_f32)
      (truncf (F := Ideal) .bf16 w bitsLt_bf16_f32) (constant (F := Ideal) S5000x256 .f32 0x00000000#32) j = _
  rw [Ideal.matmul_constant_zero_apply,
    ← Equiv.sum_comp (ValueIdx.contrEquiv1 dot_S5000x256_S256x256_S5000x256_1_0_0_1_n_n 256 rfl rfl).symm]
  refine Finset.sum_congr rfl fun k _ => ?_
  have hk := ValueIdx.contrEquiv1_symm_val dot_S5000x256_S256x256_S5000x256_1_0_0_1_n_n 256 rfl rfl k
  have el : dot_S5000x256_S256x256_S5000x256_1_0_0_1_n_n.lhsIdx j ((ValueIdx.contrEquiv1 dot_S5000x256_S256x256_S5000x256_1_0_0_1_n_n 256 rfl rfl).symm k) = lhsBlk j k :=
    funext fun a => Fin.ext (by
      match a with
      | ⟨0, _⟩ => exact lhs_axis_row _ _
      | ⟨1, _⟩ => exact (lhs_axis_contr _ _).trans hk)
  have er : dot_S5000x256_S256x256_S5000x256_1_0_0_1_n_n.rhsIdx j ((ValueIdx.contrEquiv1 dot_S5000x256_S256x256_S5000x256_1_0_0_1_n_n 256 rfl rfl).symm k) = rhsBlk j k :=
    funext fun a => Fin.ext (by
      match a with
      | ⟨0, _⟩ => exact (rhs_axis_contr _ _).trans hk
      | ⟨1, _⟩ => exact rhs_axis_col _ _)
  show x0 (dot_S5000x256_S256x256_S5000x256_1_0_0_1_n_n.lhsIdx j ((ValueIdx.contrEquiv1 dot_S5000x256_S256x256_S5000x256_1_0_0_1_n_n 256 rfl rfl).symm k))
      * w (dot_S5000x256_S256x256_S5000x256_1_0_0_1_n_n.rhsIdx j ((ValueIdx.contrEquiv1 dot_S5000x256_S256x256_S5000x256_1_0_0_1_n_n 256 rfl rfl).symm k)) = _
  rw [el, er]

/-! ## From the ten blocks to the array -/

theorem zero_offsets : (![0, 0] : Fin 2 → Nat) = fun _ => 0 := funext fun a => by fin_cases a <;> rfl

/-- The printed index maps, decided over the grid: the left factor's block moves down the rows with the output's block
    and starts at column 0; the right factor is always its one whole block; the output's block starts at column 0 and
    its row index is one of the ten. -/
theorem block_indices : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) ≤ 9 :=
  (by decide +kernel : ∀ t : Fin grid1.N, _)

/-- Each of the ten row blocks is SOME point's. -/
theorem block_of_row : ∀ q : Fin 10, ∃ t : Fin cfg1.N, win1_2.index t = ![q.val, 0] :=
  (by decide +kernel : ∀ q : Fin 10, ∃ t : Fin grid1.N, win1_2.index t = ![q.val, 0])

/-- The left factor's block at point `t`, at entry `(p, k)`, is the array's entry `(r, k)` on the row `r` where the
    output's block puts its row `p`. -/
theorem lhs_read (c : Dev nD) (t : Fin cfg1.N) (j : S5000x256.Idx) (k : Fin 256) :
    iblk1 V c 0 t (lhsBlk j k) = V c main_arg0 (Cert.Spec.lhsAt (((cfg1.win 2).blk t).view.emb j) k) := by
  obtain ⟨e0, e1, e2, e3, e4, e5⟩ := block_indices t
  show V c main_arg0 (((cfg1.win 0).blk t).view.emb (lhsBlk j k)) = _
  have h : ((cfg1.win 0).blk t).view.emb (lhsBlk j k) = Cert.Spec.lhsAt (((cfg1.win 2).blk t).view.emb j) k := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 256 + 1 * k.val = k.val; omega
  rw [h]

/-- The right factor's one block, at entry `(k, q)`, is the array's entry `(k, q)`, the output's block keeping its
    columns. -/
theorem rhs_read (c : Dev nD) (t : Fin cfg1.N) (j : S5000x256.Idx) (k : Fin 256) :
    iblk1 V c 1 t (rhsBlk j k) = V c main_arg4 (Cert.Spec.rhsAt (((cfg1.win 2).blk t).view.emb j) k) := by
  obtain ⟨e0, e1, e2, e3, e4, e5⟩ := block_indices t
  show V c main_arg4 (((cfg1.win 1).blk t).view.emb (rhsBlk j k)) = _
  have h : ((cfg1.win 1).blk t).view.emb (rhsBlk j k) = Cert.Spec.rhsAt (((cfg1.win 2).blk t).view.emb j) k := by
    funext a; apply Fin.ext
    match a with
    | ⟨0, _⟩ => show win1_1.index t (0 : Fin 2) * 256 + 1 * k.val = k.val; omega
    | ⟨1, _⟩ => show win1_1.index t (1 : Fin 2) * 256 + 1 * (j 1).val = win1_2.index t (1 : Fin 2) * 256 + 1 * (j 1).val; omega
  rw [h]

/-- WHAT POINT `t` WRITES BACK is block `t` of the matrix product of the two arrays as the region finds them. -/
theorem flushed_eq (c : Dev nD) (t : Fin cfg1.N) :
    (dat1 (F := Ideal) V c).flushed 2 t
      = ((cfg1.win 2).blk t).view.read (Elt Ideal) (Cert.Spec.matProd (V c main_arg0) (V c main_arg4)) := by
  show (cfg1.win 2).cut (grid1.coords t) ((dat1 V c).after 2 t) = _
  rw [after1_2]
  unfold out1_2
  rw [View.canon_unit_zero zero_offsets]
  simp only [View.ld_unit_zero (S := S5000x256) zero_offsets, View.ld_unit_zero (S := S256x256) zero_offsets]
  funext j
  show k1_pay1 (F := Ideal) (iblk1 V c 0 t) (iblk1 V c 1 t) j
    = Cert.Spec.matProd (V c main_arg0) (V c main_arg4) (((cfg1.win 2).blk t).view.emb j)
  refine (payload_apply _ _ j).trans ?_
  unfold Cert.Spec.matProd
  refine Finset.sum_congr rfl fun k _ => ?_
  rw [lhs_read V c t j k, rhs_read V c t j k]

/-- An index of the array is in point `t`'s block iff each coordinate is in the block's range on its axis. -/
theorem mem_blk (t : Fin cfg1.N) (i : S50000x256.Idx) :
    i ∈ ((cfg1.win 2).blk t).view.set ↔ ∀ a : Fin 2, win1_2.index t a * S5000x256.size a ≤ (i a).val
      ∧ (i a).val < win1_2.index t a * S5000x256.size a + S5000x256.size a := by
  show i ∈ ((View.whole main_v74).slice (win1_2.rect t)).set ↔ _
  rw [View.set_slice_whole, Rect.mem_set_unit]
  exact Iff.rfl

/-- THE BLOCKS TILE THE ARRAY: row `r` is in the block of the point whose row index is `r / 5000`. -/
theorem covered (i : S50000x256.Idx) :
    ∃ t : Fin cfg1.N, (cfg1.win 2).flush t = true ∧ i ∈ ((cfg1.win 2).blk t).view.set := by
  have hi0 : (i 0).val < 50000 := (i 0).isLt
  have hi1 : (i 1).val < 256 := (i 1).isLt
  obtain ⟨t, ht⟩ := block_of_row ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 256 ≤ (i 1).val ∧ (i 1).val < win1_2.index t (1 : Fin 2) * 256 + 256; omega

/-- THE REGION'S ARRAY: after the ten write-backs, the output array is the matrix product of the two input arrays as
    the region finds them. -/
theorem region_product (c : Dev nD) :
    (dat1 (F := Ideal) V c).arrAt 2 cfg1.N = Cert.Spec.matProd (V c main_arg0) (V c main_arg4) :=
  (dat1 V c).arrAt_eq_of_cover 2 _ (fun t _ => flushed_eq V c t) covered

end Cert.KernelIdeal.Product1

end
-- ==== Proof.Epilogue.lean ====
/-
  The epilogue region: at each of its 25 grid points the kernel reads a 2000-row block of each aggregation and the two
  one-row biases, and writes back `max (a1 + b1) 0 + (a2 + b2)` entry by entry; the blocks tile the 50000 rows, so the
  array the region leaves is that function of its four input arrays, index by index.
-/
import proofs.«148208_j16604343566383_1_alg».proof.Proof.Gen.KernelIdeal.Frame
import proofs.«148208_j16604343566383_1_alg».proof.Proof.Spec
import Idealize.ShloMosaic.Lib.ValueIdx
import Idealize.ShloMosaic.Lib.ValueLayout
import Idealize.ShloMosaic.Lib.Pipeline.Value

set_option maxRecDepth 16384

noncomputable section

namespace Cert.KernelIdeal.Epilogue

open Idealize.ShloMosaic Idealize.ShloMosaic.TcCoe Idealize.SL.Sem
open Cert.KernelIdeal Cert.KernelIdeal.Gen

variable {F : FTy → Type} [FloatOps F]
variable (V : (c : Dev nD) → (b : Ref sig .tc) → Buf (Elt F) ((c : Thread nD τ).loc b))

/-! ## The payload at an index -/

/-- The zero offsets of a whole-buffer rectangle, as the constant function. -/
theorem zero_offsets : (![0, 0] : Fin 2 → Nat) = fun _ => 0 := funext fun a => by fin_cases a <;> rfl

/-- Entry `(p, q)` of what the body stores: the first block's entry plus the first bias at column `q`, clamped below at
    zero, plus the second block's entry plus the second bias at column `q`. The two same-shape casts are identities, each
    one-row bias is repeated down the rows, and the remaining operations act entry by entry. -/
theorem payload_at (a1 : Vec F S2000x256 .f32) (r1 : Vec F S1x256 .f32) (a2 : Vec F S2000x256 .f32) (r2 : Vec F S1x256 .f32)
    (p : Fin 2000) (q : Fin 256) :
    k2_pay1 a1 r1 a2 r2 (ValueIdx.ix2 p q)
      = FloatOps.addf
          (FloatOps.maximumf (FloatOps.addf (a1 (ValueIdx.ix2 p q)) (r1 (ValueIdx.ix2 (0 : Fin 1) q))) (Scalar.ofBits .f32 0x00000000#32))
          (FloatOps.addf (a2 (ValueIdx.ix2 p q)) (r2 (ValueIdx.ix2 (0 : Fin 1) q))) := by
  unfold k2_pay1
  simp only [shapeCast_self]
  show FloatOps.addf
      (FloatOps.maximumf
        (FloatOps.addf (a1 (ValueIdx.ix2 p q)) (broadcastTo S2000x256 r1 broadcasts_S1x256_S2000x256 (ValueIdx.ix2 p q)))
        (Scalar.ofBits .f32 0x00000000#32))
      (FloatOps.addf (a2 (ValueIdx.ix2 p q)) (broadcastTo S2000x256 r2 broadcasts_S1x256_S2000x256 (ValueIdx.ix2 p q))) = _
  rw [ValueIdx.broadcastTo_1b_ab_apply, ValueIdx.broadcastTo_1b_ab_apply]

/-! ## The windows' index maps -/

/-- Over the 25 grid points: the two aggregation windows move with the output window, whose block index at point `t` is
    `(t, 0)`; the two bias windows stay at block `(0, 0)`. -/
theorem index_maps : ∀ t : Fin cfg2.N,
    win2_0.index t (0 : Fin 2) = win2_4.index t (0 : Fin 2)
    ∧ win2_0.index t (1 : Fin 2) = win2_4.index t (1 : Fin 2)
    ∧ win2_1.index t (0 : Fin 2) = win2_4.index t (0 : Fin 2)
    ∧ win2_1.index t (1 : Fin 2) = win2_4.index t (1 : Fin 2)
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-! ## The input blocks, read where the output block's entry goes -/

/-- Entry `(p, q)` of the first aggregation's block at point `t` is the array's entry at the place entry `(p, q)` of the
    output's block goes: both blocks start at row `2000·t`, column `0`. -/
theorem first_block_at (c : Dev nD) (t : Fin cfg2.N) (p : Fin 2000) (q : Fin 256) :
    iblk2 V c 0 t (ValueIdx.ix2 p q) = V c main_v43 (((cfg2.win 4).blk t).view.emb (ValueIdx.ix2 p q)) := by
  obtain ⟨e0, e1, -, -, -, -, -, -, -, -⟩ := index_maps t
  show V c main_v43 (((cfg2.win 0).blk t).view.emb (ValueIdx.ix2 p q)) = V c main_v43 (((cfg2.win 4).blk t).view.emb (ValueIdx.ix2 p q))
  refine congrArg (V c main_v43) (funext fun a => Fin.ext ?_)
  match a with
  | ⟨0, _⟩ => show win2_0.index t (0 : Fin 2) * 2000 + 1 * p.val = win2_4.index t (0 : Fin 2) * 2000 + 1 * p.val; omega
  | ⟨1, _⟩ => show win2_0.index t (1 : Fin 2) * 256 + 1 * q.val = win2_4.index t (1 : Fin 2) * 256 + 1 * q.val; omega

/-- The same for the second aggregation's block. -/
theorem second_block_at (c : Dev nD) (t : Fin cfg2.N) (p : Fin 2000) (q : Fin 256) :
    iblk2 V c 1 t (ValueIdx.ix2 p q) = V c main_v87 (((cfg2.win 4).blk t).view.emb (ValueIdx.ix2 p q)) := by
  obtain ⟨-, -, e2, e3, -, -, -, -, -, -⟩ := index_maps t
  show V c main_v87 (((cfg2.win 1).blk t).view.emb (ValueIdx.ix2 p q)) = V c main_v87 (((cfg2.win 4).blk t).view.emb (ValueIdx.ix2 p q))
  refine congrArg (V c main_v87) (funext fun a => Fin.ext ?_)
  match a with
  | ⟨0, _⟩ => show win2_1.index t (0 : Fin 2) * 2000 + 1 * p.val = win2_4.index t (0 : Fin 2) * 2000 + 1 * p.val; omega
  | ⟨1, _⟩ => show win2_1.index t (1 : Fin 2) * 256 + 1 * q.val = win2_4.index t (1 : Fin 2) * 256 + 1 * q.val; omega

/-- Entry `(0, q)` of the first bias's block (the whole one-row array, at every point) is the array's entry `(0, q)`,
    which is the bias entry that output entry `(p, q)` of point `t`'s block meets: the output's column there is `q`. -/
theorem first_bias_at (c : Dev nD) (t : Fin cfg2.N) (p : Fin 2000) (q : Fin 256) :
    iblk2 V c 2 t (ValueIdx.ix2 (0 : Fin 1) q)
      = V c main_v88 (Cert.Spec.biasAt (((cfg2.win 4).blk t).view.emb (ValueIdx.ix2 p q))) := by
  obtain ⟨-, -, -, -, e4, e5, -, -, -, e9⟩ := index_maps t
  show V c main_v88 (((cfg2.win 2).blk t).view.emb (ValueIdx.ix2 (0 : Fin 1) q)) = _
  refine congrArg (V c main_v88) (funext fun a => Fin.ext ?_)
  match a with
  | ⟨0, _⟩ => show win2_2.index t (0 : Fin 2) * 1 + 1 * 0 = 0; omega
  | ⟨1, _⟩ => show win2_2.index t (1 : Fin 2) * 256 + 1 * q.val = win2_4.index t (1 : Fin 2) * 256 + 1 * q.val; omega

/-- The same for the second bias's block. -/
theorem second_bias_at (c : Dev nD) (t : Fin cfg2.N) (p : Fin 2000) (q : Fin 256) :
    iblk2 V c 3 t (ValueIdx.ix2 (0 : Fin 1) q)
      = V c main_v89 (Cert.Spec.biasAt (((cfg2.win 4).blk t).view.emb (ValueIdx.ix2 p q))) := by
  obtain ⟨-, -, -, -, -, -, e6, e7, -, e9⟩ := index_maps t
  show V c main_v89 (((cfg2.win 3).blk t).view.emb (ValueIdx.ix2 (0 : Fin 1) q)) = _
  refine congrArg (V c main_v89) (funext fun a => Fin.ext ?_)
  match a with
  | ⟨0, _⟩ => show win2_3.index t (0 : Fin 2) * 1 + 1 * 0 = 0; omega
  | ⟨1, _⟩ => show win2_3.index t (1 : Fin 2) * 256 + 1 * q.val = win2_4.index t (1 : Fin 2) * 256 + 1 * q.val; omega

/-! ## What a point writes back -/

/-- WHAT POINT `t` WRITES BACK is block `t` of the epilogue of the four arrays as the region finds them. -/
theorem flushed_eq (c : Dev nD) (t : Fin cfg2.N) :
    (dat2 (F := F) V c).flushed 4 t
      = ((cfg2.win 4).blk t).view.read (Elt F)
          (Cert.Spec.combineAt (V c main_v43) (V c main_v87) (V c main_v88) (V c main_v89)) := by
  show (cfg2.win 4).cut (grid2.coords t) ((dat2 V c).after 4 t) = _
  rw [after2_4]
  unfold out2_4
  rw [View.canon_unit_zero zero_offsets]
  simp only [View.ld_unit_zero (S := S2000x256) zero_offsets, View.ld_unit_zero (S := S1x256) zero_offsets]
  funext j
  obtain ⟨p, q, rfl⟩ : ∃ (p : Fin 2000) (q : Fin 256), j = ValueIdx.ix2 p q := ⟨j 0, j 1, ValueIdx.eq_ix2 j⟩
  show k2_pay1 (iblk2 V c 0 t) (iblk2 V c 2 t) (iblk2 V c 1 t) (iblk2 V c 3 t) (ValueIdx.ix2 p q)
      = Cert.Spec.combineAt (V c main_v43) (V c main_v87) (V c main_v88) (V c main_v89)
          (((cfg2.win 4).blk t).view.emb (ValueIdx.ix2 p q))
  rw [payload_at, first_block_at, second_block_at, first_bias_at V c t p q, second_bias_at V c t p q]
  rfl

/-! ## The blocks tile the array -/

/-- An index of the array is in point `t`'s block iff each coordinate is in the block's range on its axis. -/
theorem mem_block (t : Fin cfg2.N) (i : S50000x256.Idx) :
    i ∈ ((cfg2.win 4).blk t).view.set
      ↔ ∀ a : Fin 2, win2_4.index t a * S2000x256.size a ≤ (i a).val
          ∧ (i a).val < win2_4.index t a * S2000x256.size a + S2000x256.size a := by
  show i ∈ ((View.whole main_v90).slice (win2_4.rect t)).set ↔ _
  rw [View.set_slice_whole, Rect.mem_set_unit]
  exact Iff.rfl

/-- Every index of the array is in the block of the point its row falls to: row `r` is written at point `r / 2000`. -/
theorem covered (i : S50000x256.Idx) :
    ∃ t : Fin cfg2.N, (cfg2.win 4).flush t = true ∧ i ∈ ((cfg2.win 4).blk t).view.set := by
  have hi0 : (i 0).val < 50000 := (i 0).isLt
  have hi1 : (i 1).val < 256 := (i 1).isLt
  have hN : cfg2.N = 25 := N_2
  refine ⟨⟨(i 0).val / 2000, by rw [hN]; omega⟩, flush2_4 _, ?_⟩
  rw [mem_block]
  obtain ⟨-, -, -, -, -, -, -, -, e8, e9⟩ := index_maps ⟨(i 0).val / 2000, by rw [hN]; omega⟩
  intro a
  match a with
  | ⟨0, _⟩ =>
    show win2_4.index _ (0 : Fin 2) * 2000 ≤ (i 0).val ∧ (i 0).val < win2_4.index _ (0 : Fin 2) * 2000 + 2000
    rw [e8]; show (i 0).val / 2000 * 2000 ≤ (i 0).val ∧ (i 0).val < (i 0).val / 2000 * 2000 + 2000; omega
  | ⟨1, _⟩ =>
    show win2_4.index _ (1 : Fin 2) * 256 ≤ (i 1).val ∧ (i 1).val < win2_4.index _ (1 : Fin 2) * 256 + 256
    rw [e9]; omega

/-- THE REGION'S ARRAY: after the 25 write-backs, the output array is the epilogue of the four input arrays as the
    region finds them. -/
theorem region_combine (c : Dev nD) :
    (dat2 (F := F) V c).arrAt 4 cfg2.N
      = Cert.Spec.combineAt (V c main_v43) (V c main_v87) (V c main_v88) (V c main_v89) :=
  (dat2 V c).arrAt_eq_of_cover 4 _ (fun t _ => flushed_eq V c t) covered

end Cert.KernelIdeal.Epilogue

end
-- ==== Proof.Bridge.lean ====
/-
  The two laws that join the kernel's forms to the specification's.

  * Over the extended reals the host's `dot_general` (contracting the second axis of the left factor with the first of
    the right one) is the plain sum `matProd`: entry `(r, j) = ∑ k, x (r, k) · w (k, j)`.  The contraction's index type
    is identified with `Fin 256`, and the two operand indices of a term are read off axis by axis.
  * The epilogue index by index over the biases as one-row arrays is the specification's `epilogue` over the bias vectors:
    a bias repeated down the rows, read at `(r, j)`, is its entry `j`, and so is the one-row array's entry `(0, j)`; a
    constant repeated everywhere, read anywhere, is the constant.

  With both, the kernel's whole value — the epilogue of the two aggregations of the two products — is `Cert.Spec.out`.
-/
import proofs.«148208_j16604343566383_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.Spec

open Idealize.ShloMosaic Cert.ReferenceIdeal Cert.ReferenceIdeal.Gen

/-! ## The host's matrix product is the plain sum -/

theorem lhs_axis0 (i : S50000x256.Idx) (q : dot_S50000x256_S256x256_S50000x256_1_0_0_1_n_n.contr.Idx) :
    (dot_S50000x256_S256x256_S50000x256_1_0_0_1_n_n.lhsIdx i q 0).val = (i 0).val := by
  unfold DotDims.lhsIdx
  rw [dif_neg (show ¬(0 : Fin S50000x256.rank) ∈ dot_S50000x256_S256x256_S50000x256_1_0_0_1_n_n.lhsBatch by decide), dif_pos (show (0 : Fin S50000x256.rank) ∈ dot_S50000x256_S256x256_S50000x256_1_0_0_1_n_n.lhsNonContracting by decide)]
  rfl
theorem lhs_axis1 (i : S50000x256.Idx) (q : dot_S50000x256_S256x256_S50000x256_1_0_0_1_n_n.contr.Idx) :
    (dot_S50000x256_S256x256_S50000x256_1_0_0_1_n_n.lhsIdx i q 1).val = (q ⟨0, by decide⟩).val :=
  dot_S50000x256_S256x256_S50000x256_1_0_0_1_n_n.lhsIdx_val_of_single rfl i q
theorem rhs_axis0 (i : S50000x256.Idx) (q : dot_S50000x256_S256x256_S50000x256_1_0_0_1_n_n.contr.Idx) :
    (dot_S50000x256_S256x256_S50000x256_1_0_0_1_n_n.rhsIdx i q 0).val = (q ⟨0, by decide⟩).val :=
  dot_S50000x256_S256x256_S50000x256_1_0_0_1_n_n.rhsIdx_val_of_single rfl i q
theorem rhs_axis1 (i : S50000x256.Idx) (q : dot_S50000x256_S256x256_S50000x256_1_0_0_1_n_n.contr.Idx) :
    (dot_S50000x256_S256x256_S50000x256_1_0_0_1_n_n.rhsIdx i q 1).val = (i 1).val := by
  unfold DotDims.rhsIdx
  rw [dif_neg (show ¬(1 : Fin S256x256.rank) ∈ dot_S50000x256_S256x256_S50000x256_1_0_0_1_n_n.rhsBatch by decide), dif_pos (show (1 : Fin S256x256.rank) ∈ dot_S50000x256_S256x256_S50000x256_1_0_0_1_n_n.rhsNonContracting by decide)]
  rfl

/-- The host's `dot_general` of the feature matrix and a weight matrix, over the extended reals, is `matProd`. -/
theorem dot_is_matProd (x : FVec Ideal S50000x256 .f32) (w : FVec Ideal S256x256 .f32) :
    Host.dotGeneral (F := Ideal) dot_S50000x256_S256x256_S50000x256_1_0_0_1_n_n none x w = matProd x w := by
  funext i
  unfold matProd
  simp only [Host.dotGeneral]
  rw [Ideal.dotGeneral_apply, ← Equiv.sum_comp (ValueIdx.contrEquiv1 dot_S50000x256_S256x256_S50000x256_1_0_0_1_n_n 256 rfl rfl).symm]
  refine Finset.sum_congr rfl fun k _ => ?_
  have hk := ValueIdx.contrEquiv1_symm_val dot_S50000x256_S256x256_S50000x256_1_0_0_1_n_n 256 rfl rfl k
  have el : dot_S50000x256_S256x256_S50000x256_1_0_0_1_n_n.lhsIdx i ((ValueIdx.contrEquiv1 dot_S50000x256_S256x256_S50000x256_1_0_0_1_n_n 256 rfl rfl).symm k) = lhsAt i k := funext fun a => Fin.ext (by
    match a with
    | ⟨0, _⟩ => exact lhs_axis0 _ _
    | ⟨1, _⟩ => exact (lhs_axis1 _ _).trans hk)
  have er : dot_S50000x256_S256x256_S50000x256_1_0_0_1_n_n.rhsIdx i ((ValueIdx.contrEquiv1 dot_S50000x256_S256x256_S50000x256_1_0_0_1_n_n 256 rfl rfl).symm k) = rhsAt i k := funext fun a => Fin.ext (by
    match a with
    | ⟨0, _⟩ => exact (rhs_axis0 _ _).trans hk
    | ⟨1, _⟩ => exact rhs_axis1 _ _)
  rw [el, er]

/-! ## The epilogue over one-row biases is the epilogue over bias vectors -/

variable {F : FTy → Type} [FloatOps F]

/-- A bias repeated down the rows, read at `(r, j)`, is the one-row array's entry `(0, j)`: both are the bias's entry `j`. -/
theorem rowBias_apply (b : (⟨S256, .f32⟩ : BufTy).Contents (Elt F)) (h : S256.ShapeCasts S1x256) (i : S50000x256.Idx) :
    rowBias b i = shapeCast S1x256 b h (biasAt i) := by
  let k : S256.Idx := fun a => match a with | ⟨0, _⟩ => ⟨(i 1).val, (i 1).isLt⟩
  have e1 : rowBias b i = b k := by
    unfold rowBias
    refine (broadcastInDim_apply _ _ _ i (biasAt i) fun a => ?_).trans ?_
    · match a with
      | ⟨0, _⟩ => rfl
      | ⟨1, _⟩ => rfl
    · refine broadcastInDim_apply _ _ _ (biasAt i) k fun a => ?_
      match a with
      | ⟨0, _⟩ => rfl
  have e2 : shapeCast S1x256 b h (biasAt i) = b k := by
    refine shapeCast_apply b h (biasAt i) k ?_
    rw [Shape.rowMajor_val_one, Shape.rowMajor_val_two]
    show (i 1).val = 0 * 256 + (i 1).val
    omega
  rw [e1, e2]

/-- The index-by-index epilogue over the biases as one-row arrays is the specification's epilogue. -/
theorem combine_is_epilogue (a1 a2 : (⟨S50000x256, .f32⟩ : BufTy).Contents (Elt F)) (b1 b2 : (⟨S256, .f32⟩ : BufTy).Contents (Elt F))
    (h1 h2 : S256.ShapeCasts S1x256) :
    combineAt a1 a2 (shapeCast S1x256 b1 h1) (shapeCast S1x256 b2 h2) = epilogue a1 a2 b1 b2 := by
  funext i
  unfold combineAt epilogue
  show _ = FloatOps.addf (FloatOps.maximumf (FloatOps.addf (a1 i) (rowBias b1 i))
      (broadcastInDim S50000x256 ![] bcast_S_S50000x256 (constant (F := F) S_ .f32 0x00000000#32) i)) (FloatOps.addf (a2 i) (rowBias b2 i))
  rw [rowBias_apply b1 h1 i, rowBias_apply b2 h2 i]
  rfl

/-! ## The kernel's whole value -/

/-- The epilogue, index by index over one-row biases, of the two aggregations of the two plain-sum products is the
    specification's output: the products are the host's (`dot_is_matProd`), the epilogue the specification's
    (`combine_is_epilogue`), and the aggregation is `conv` by its definition. -/
theorem kernel_form_is_out (x : FVec Ideal S50000x256 .f32) (ei : (⟨S2x800000, .i32⟩ : BufTy).Contents (Elt Ideal))
    (w1 : FVec Ideal S256x256 .f32) (b1 : FVec Ideal S256 .f32)
    (w2 : FVec Ideal S256x256 .f32) (b2 : FVec Ideal S256 .f32)
    (h1 h2 : S256.ShapeCasts S1x256) :
    combineAt (aggregate (sources ei) (targets ei) (edgeWeight (sources ei) (targets ei)) (matProd x w1))
        (aggregate (sources ei) (targets ei) (edgeWeight (sources ei) (targets ei)) (matProd x w2))
        (shapeCast S1x256 b1 h1) (shapeCast S1x256 b2 h2)
      = out x ei w1 b1 w2 b2 := by
  rw [combine_is_epilogue, ← dot_is_matProd x w1, ← dot_is_matProd x w2]
  rfl

end Cert.Spec

end
-- ==== Proof.KernelValue.lean ====
/-
  The kernel program's result, read back through its run.  The run's last boundary holds the epilogue region's output
  array; each region's array is a function of the arrays it finds (the two product regions: the matrix product; the
  epilogue region: the index-by-index epilogue), and each host stretch between them computes the specification's named
  functions of the buffers it finds.  Walking from the launch memory forward:

  * at the first product's entry the sources, targets and weights are those of the edge list, and `x`, `W1` are as launched;
  * at its exit the product array is `matProd x W1`, everything else as at entry;
  * at the second product's entry the first aggregation is there, the sources, targets and weights have been computed
    again from the edge list, and `x`, `W2` are as launched; at its exit the product array is `matProd x W2`;
  * at the epilogue's entry the second aggregation and the two biases as one-row arrays are there, the first aggregation
    untouched; at its exit the output is the epilogue of those four arrays,

  which is `Cert.Spec.out` of the six arguments (`Cert.Spec.kernel_form_is_out`).
-/
import proofs.«148208_j16604343566383_1_alg».proof.Proof.HostReads
import proofs.«148208_j16604343566383_1_alg».proof.Proof.Product0
import proofs.«148208_j16604343566383_1_alg».proof.Proof.Product1
import proofs.«148208_j16604343566383_1_alg».proof.Proof.Epilogue
import proofs.«148208_j16604343566383_1_alg».proof.Proof.Bridge
import proofs.«148208_j16604343566383_1_alg».proof.Proof.KernelRun

set_option maxRecDepth 16384

noncomputable section

namespace Cert.KernelIdeal.Hand

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg) (c : Dev nD)

/-! ## At the first product -/

theorem entry0_x : V3 m ρ c main_arg0 = m ((c : Thread nD τ).loc main_arg0) := pre0_arg0 (W0 m ρ c)
theorem entry0_w : V3 m ρ c main_arg2 = m ((c : Thread nD τ).loc main_arg2) := pre0_arg2 (W0 m ρ c)

theorem exit0_sources : W4 m ρ c (Proc.devRef .tc main_v3) = Cert.Spec.sources (m ((c : Thread nD τ).loc main_arg1)) :=
  (W4_of_ne m ρ c main_v3 (by decide)).trans (pre0_sources (W0 m ρ c))
theorem exit0_targets : W4 m ρ c (Proc.devRef .tc main_v6) = Cert.Spec.targets (m ((c : Thread nD τ).loc main_arg1)) :=
  (W4_of_ne m ρ c main_v6 (by decide)).trans (pre0_targets (W0 m ρ c))
theorem exit0_weights : W4 m ρ c (Proc.devRef .tc main_v29)
    = Cert.Spec.edgeWeight (Cert.Spec.sources (m ((c : Thread nD τ).loc main_arg1))) (Cert.Spec.targets (m ((c : Thread nD τ).loc main_arg1))) :=
  (W4_of_ne m ρ c main_v29 (by decide)).trans (pre0_weights (W0 m ρ c))
theorem exit0_product : W4 m ρ c (Proc.devRef .tc main_v30)
    = Cert.Spec.matProd (m ((c : Thread nD τ).loc main_arg0)) (m ((c : Thread nD τ).loc main_arg2)) :=
  (W4_arr m ρ c 2).trans ((Cert.KernelIdeal.Product0.region_product (V3 m ρ) c).trans (by rw [entry0_x, entry0_w]))
/-- `x` is an input of the first product region: the region leaves an input's array as it finds it. -/
theorem exit0_x : W4 m ρ c (Proc.devRef .tc main_arg0) = m ((c : Thread nD τ).loc main_arg0) :=
  ((W4_arr m ρ c 0).trans (((dat0 (V3 m ρ) c).arrAt_in 0 rfl _).trans (A_eq0 (V3 m ρ) c 0))).trans (pre0_arg0 (W0 m ρ c))
theorem exit0_edges : W4 m ρ c (Proc.devRef .tc main_arg1) = m ((c : Thread nD τ).loc main_arg1) :=
  (W4_of_ne m ρ c main_arg1 (by decide)).trans (pre0_arg1 (W0 m ρ c))
theorem exit0_b1 : W4 m ρ c (Proc.devRef .tc main_arg3) = m ((c : Thread nD τ).loc main_arg3) :=
  (W4_of_ne m ρ c main_arg3 (by decide)).trans (pre0_arg3 (W0 m ρ c))
theorem exit0_w2 : W4 m ρ c (Proc.devRef .tc main_arg4) = m ((c : Thread nD τ).loc main_arg4) :=
  (W4_of_ne m ρ c main_arg4 (by decide)).trans (pre0_arg4 (W0 m ρ c))
theorem exit0_b2 : W4 m ρ c (Proc.devRef .tc main_arg5) = m ((c : Thread nD τ).loc main_arg5) :=
  (W4_of_ne m ρ c main_arg5 (by decide)).trans (pre0_arg5 (W0 m ρ c))

/-! ## At the second product -/

theorem entry1_x : V7 m ρ c main_arg0 = m ((c : Thread nD τ).loc main_arg0) :=
  (mid1_arg0 (W4 m ρ c)).trans (exit0_x m ρ c)
theorem entry1_w : V7 m ρ c main_arg4 = m ((c : Thread nD τ).loc main_arg4) :=
  (mid1_arg4 (W4 m ρ c)).trans (exit0_w2 m ρ c)

theorem exit1_first : W8 m ρ c (Proc.devRef .tc main_v43)
    = Cert.Spec.aggregate (Cert.Spec.sources (m ((c : Thread nD τ).loc main_arg1))) (Cert.Spec.targets (m ((c : Thread nD τ).loc main_arg1)))
        (Cert.Spec.edgeWeight (Cert.Spec.sources (m ((c : Thread nD τ).loc main_arg1))) (Cert.Spec.targets (m ((c : Thread nD τ).loc main_arg1))))
        (Cert.Spec.matProd (m ((c : Thread nD τ).loc main_arg0)) (m ((c : Thread nD τ).loc main_arg2))) :=
  (W8_of_ne m ρ c main_v43 (by decide)).trans ((mid1_aggregate (W4 m ρ c)).trans
    (by rw [exit0_sources, exit0_targets, exit0_weights, exit0_product]))
theorem exit1_sources : W8 m ρ c (Proc.devRef .tc main_v47) = Cert.Spec.sources (m ((c : Thread nD τ).loc main_arg1)) :=
  (W8_of_ne m ρ c main_v47 (by decide)).trans ((mid1_sources (W4 m ρ c)).trans (by rw [exit0_edges]))
theorem exit1_targets : W8 m ρ c (Proc.devRef .tc main_v50) = Cert.Spec.targets (m ((c : Thread nD τ).loc main_arg1)) :=
  (W8_of_ne m ρ c main_v50 (by decide)).trans ((mid1_targets (W4 m ρ c)).trans (by rw [exit0_edges]))
theorem exit1_weights : W8 m ρ c (Proc.devRef .tc main_v73)
    = Cert.Spec.edgeWeight (Cert.Spec.sources (m ((c : Thread nD τ).loc main_arg1))) (Cert.Spec.targets (m ((c : Thread nD τ).loc main_arg1))) :=
  (W8_of_ne m ρ c main_v73 (by decide)).trans ((mid1_weights (W4 m ρ c)).trans (by rw [exit0_edges]))
theorem exit1_product : W8 m ρ c (Proc.devRef .tc main_v74)
    = Cert.Spec.matProd (m ((c : Thread nD τ).loc main_arg0)) (m ((c : Thread nD τ).loc main_arg4)) :=
  (W8_arr m ρ c 2).trans ((Cert.KernelIdeal.Product1.region_product (V7 m ρ) c).trans (by rw [entry1_x, entry1_w]))
theorem exit1_b1 : W8 m ρ c (Proc.devRef .tc main_arg3) = m ((c : Thread nD τ).loc main_arg3) :=
  (W8_of_ne m ρ c main_arg3 (by decide)).trans ((mid1_arg3 (W4 m ρ c)).trans (exit0_b1 m ρ c))
theorem exit1_b2 : W8 m ρ c (Proc.devRef .tc main_arg5) = m ((c : Thread nD τ).loc main_arg5) :=
  (W8_of_ne m ρ c main_arg5 (by decide)).trans ((mid1_arg5 (W4 m ρ c)).trans (exit0_b2 m ρ c))

/-! ## At the epilogue -/

theorem entry2_first : V9 m ρ c main_v43
    = Cert.Spec.aggregate (Cert.Spec.sources (m ((c : Thread nD τ).loc main_arg1))) (Cert.Spec.targets (m ((c : Thread nD τ).loc main_arg1)))
        (Cert.Spec.edgeWeight (Cert.Spec.sources (m ((c : Thread nD τ).loc main_arg1))) (Cert.Spec.targets (m ((c : Thread nD τ).loc main_arg1))))
        (Cert.Spec.matProd (m ((c : Thread nD τ).loc main_arg0)) (m ((c : Thread nD τ).loc main_arg2))) :=
  (post2_keeps (W8 m ρ c)).trans (exit1_first m ρ c)
theorem entry2_second : V9 m ρ c main_v87
    = Cert.Spec.aggregate (Cert.Spec.sources (m ((c : Thread nD τ).loc main_arg1))) (Cert.Spec.targets (m ((c : Thread nD τ).loc main_arg1)))
        (Cert.Spec.edgeWeight (Cert.Spec.sources (m ((c : Thread nD τ).loc main_arg1))) (Cert.Spec.targets (m ((c : Thread nD τ).loc main_arg1))))
        (Cert.Spec.matProd (m ((c : Thread nD τ).loc main_arg0)) (m ((c : Thread nD τ).loc main_arg4))) :=
  (post2_aggregate (W8 m ρ c)).trans (by rw [exit1_sources, exit1_targets, exit1_weights, exit1_product])
theorem entry2_bias1 : V9 m ρ c main_v88 = shapeCast S1x256 (m ((c : Thread nD τ).loc main_arg3)) shapeCasts_S256_S1x256 :=
  (post2_bias1 (W8 m ρ c)).trans (by rw [exit1_b1])
theorem entry2_bias2 : V9 m ρ c main_v89 = shapeCast S1x256 (m ((c : Thread nD τ).loc main_arg5)) shapeCasts_S256_S1x256 :=
  (post2_bias2 (W8 m ρ c)).trans (by rw [exit1_b2])

/-- THE RESULT: at the run's last boundary the output buffer holds the specification's output of the six arguments. -/
theorem result : W10 m ρ c (Proc.devRef .tc main_v90)
    = Cert.Spec.out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (W10_arr m ρ c 4).trans ((Cert.KernelIdeal.Epilogue.region_combine (V9 m ρ) c).trans (by
    rw [entry2_first, entry2_second, entry2_bias1, entry2_bias2]
    exact Cert.Spec.kernel_form_is_out _ _ _ _ _ _ _ _))

/-- The kernel program's run with its result named: every weakly fair execution terminates with the result buffer at
    `Cert.Spec.out` of the arguments and the arguments unchanged. -/
theorem run : θ_run defs (onTc (τ := τ) (main (F := Ideal))) ⟨m, fun _ => 0, ρ⟩ (fun r => ∀ c : Dev nD,
      r.2.mem ((c.tc : Thread nD τ).loc main_v90)
        = Cert.Spec.out (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (result m ρ c), (h c).2⟩) (Cert.KernelIdeal.GenP.run_named (F := Ideal) m ρ)

end Cert.KernelIdeal.Hand

end
-- ==== Proof.RefValue.lean ====
/-
  The reference's result is the specification's `out` of the argument arrays: the composed term its run ends at is
  `Cert.Spec.out` with every named function unfolded, so the equation is by unfolding the names (at an abstract float
  instance; nothing is computed).  The reference's run is then re-posted with that function in its post.
-/
import proofs.«148208_j16604343566383_1_alg».proof.Proof.RefRun
import proofs.«148208_j16604343566383_1_alg».proof.Proof.Spec

set_option maxRecDepth 16384

noncomputable section

namespace Cert.ReferenceIdeal.Hand

open Idealize.ShloMosaic Idealize.ShloMosaic.TcCoe Idealize.SL.Sem
open Cert.ReferenceIdeal Cert.ReferenceIdeal.Gen

variable {F : FTy → Type} [FloatOps F]

/-- The run's composed term IS the specification of the six argument arrays. -/
theorem result_is_out (m : (ℓ : Loc nD τ sig) → Buf (Elt F) ℓ) (c : Dev nD) :
    Cert.ReferenceIdeal.ValueP.res_main_v95 (F := F) m c
      = Cert.Spec.out (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.ValueP.res_main_v95 Cert.Spec.out Cert.Spec.epilogue Cert.Spec.rowBias Cert.Spec.conv
    Cert.Spec.aggregate Cert.Spec.edgeWeight Cert.Spec.invSqrtDeg Cert.Spec.degree Cert.Spec.wrapped Cert.Spec.sources
    Cert.Spec.targets
  rfl

/-- Every weakly fair execution of the reference terminates with its result at `Cert.Spec.out` of the arguments, the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v95)
        = Cert.Spec.out (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (result_is_out m c), (h c).2⟩)
    (Cert.ReferenceIdeal.ValueP.run (F := F) m ρ)

end Cert.ReferenceIdeal.Hand

end
-- ==== Proof.lean ====
/-
  A two-layer graph convolution, `max (conv(x·W1) + b1) 0 + (conv(x·W2) + b2)`, where `conv` adds self loops, weights
  each message by `deg^(-1/2)` at both of its ends and sums the messages into their targets.

  The kernel program computes the two feature transforms `x·W1`, `x·W2` in two tiled matrix-product regions (both factors
  narrowed to bf16, accumulated in f32 from zero) and the final `max (a1 + b1) 0 + (a2 + b2)` in a tiled pointwise region;
  everything between — sources, targets, degrees, weights, the gather of rows, the scaling, the scatter-add — is the
  reference's own host operations, twice.  Over the extended reals a change of float format is the identity and a product
  accumulated from zero is the plain sum `∑ k, x (r, k) · W (k, j)`, which is what the host's `dot_general` is there; the
  tiles of each region cover its array; and the pointwise region's entries are the host's `add`, `maximum`, `add` of the
  same entries.  So both programs end at ONE function of the six arguments, `Cert.Spec.out`: the shared chain is never
  opened, only the two products and the epilogue are compared, index by index.  No law used needs finite inputs
  (a sum is compared with the same sum, term by term), so the precondition is not opened.

  The frames: the two kernel programs' are the generated frame certificates; the reference's is its run with the result
  dropped.  The idealization rewrote nothing, so `preserves` is trivial.
-/
import proofs.«148208_j16604343566383_1_alg».proof.Defs
import proofs.«148208_j16604343566383_1_alg».proof.Proof.Gen.Kernel
import proofs.«148208_j16604343566383_1_alg».proof.Proof.Gen.Kernel.Skeleton
import proofs.«148208_j16604343566383_1_alg».proof.Proof.Gen.Kernel.Launch
import proofs.«148208_j16604343566383_1_alg».proof.Proof.Gen.Kernel.Points
import proofs.«148208_j16604343566383_1_alg».proof.Proof.Gen.Kernel.Frame
import proofs.«148208_j16604343566383_1_alg».proof.Proof.Gen.KernelIdeal
import proofs.«148208_j16604343566383_1_alg».proof.Proof.Gen.KernelIdeal.Skeleton
import proofs.«148208_j16604343566383_1_alg».proof.Proof.Gen.KernelIdeal.Launch
import proofs.«148208_j16604343566383_1_alg».proof.Proof.Gen.KernelIdeal.Points
import proofs.«148208_j16604343566383_1_alg».proof.Proof.Gen.KernelIdeal.Frame
import proofs.«148208_j16604343566383_1_alg».proof.Proof.Gen.ReferenceIdeal
import proofs.«148208_j16604343566383_1_alg».proof.Proof.Gen.Pre_finite_inputs
import proofs.«148208_j16604343566383_1_alg».proof.Proof.KernelValue
import proofs.«148208_j16604343566383_1_alg».proof.Proof.RefValue
import Idealize.ShloMosaic.Adequacy
import Idealize.ShloMosaic.Init

noncomputable section

namespace Cert.Proof

open Idealize.ShloMosaic Idealize.SL.Sem Cert.Kernel

/-- The word-level kernel program runs and leaves its arguments as launched. -/
theorem frame_kernel : Cert.frame_Kernel := fun m ρ _ => Cert.Kernel.Gen.frame m ρ

/-- The idealized kernel program runs and leaves its arguments as launched. -/
theorem frame_kernelIdeal : Cert.frame_KernelIdeal := fun m ρ _ => Cert.KernelIdeal.Gen.frame m ρ

/-- The reference runs and leaves its arguments as launched: its run, the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Over the extended reals both programs end at `Cert.Spec.out` of arguments that agree. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Hand.run (F := Ideal) m' ρ')
  obtain ⟨e0, e1, e2, e3, e4, e5⟩ := hagree c
  rw [e0, e1, e2, e3, e4, e5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
